-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4x4096x4096 .f32) (main_arg2 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096 : Shape := ⟨1, ![4096]⟩
abbrev S1x512x4096 : Shape := ⟨3, ![1, 512, 4096]⟩
abbrev S1x1x4096 : Shape := ⟨3, ![1, 1, 4096]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4096, .f32⟩
  | .hbm, ⟨3, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | .local _ .vmem, ⟨4, _⟩ => ⟨S4096, .f32⟩
  | .local _ .vmem, ⟨5, _⟩ => ⟨S1x512x4096, .f32⟩
  | .local _ .vmem, ⟨6, _⟩ => ⟨S1x512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S4096_S4096_0 : ∀ a, (![0] : Fin 1 → Nat) a + S4096.size a ≤ S4096.size a
  h_S4096 : 0 < S4096.numel
  inb_S1x512x4096_S1x512x4096_0_0_0 : ∀ a, (![0, 0, 0] : Fin 3 → Nat) a + S1x512x4096.size a ≤ S1x512x4096.size a
  h_S1x512x4096 : 0 < S1x512x4096.numel
  shapeCasts_S4096_S1x1x4096 : S4096.ShapeCasts S1x1x4096
  broadcasts_S1x1x4096_S1x512x4096 : S1x1x4096.Broadcasts S1x512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S4x4096x4096.size a
  hwx0_1 : ∀ i : grid0.Coords, EltTy.bits .f32 = 32 ∨ (Rect.block (s := S4x4096x4096) S1x512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4096.size a ≤ S4x4096x4096.size a
  hwx0_3 : ∀ i : grid0.Coords, EltTy.bits .f32 = 32 ∨ (Rect.block (s := S4x4096x4096) S1x512x4096.size (cc0_transform_3 i) (hinb0_3 i)).WholeWords (EltTy.packing .f32)

variable [Facts₀]

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4096, .f32⟩
  | .hbm, ⟨3, _⟩ => ⟨S1x1x4096, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S1x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4096 : S_.BroadcastsInDim S4096 (![] : Fin 0 → Fin S4096.rank)

variable [Facts₀]

class Facts : Prop extends Facts₀ where

variable [Facts]
-- ==== Proof.Blend.lean ====
/-
  The function both programs compute: a lane-wise blend of two [4, 4096, 4096] arrays by a [4096] weight,
      blend a b w (p, r, l) = a (p, r, l) · w l + b (p, r, l) · (1 − w l),
  the weight read at the index's last coordinate alone. Stated once, over any float instance, with the constant 1 as
  the binary word both programs print; no law of arithmetic is used anywhere, since the kernel and the reference
  apply the same operations in the same order to the same operands.
-/
import Idealize.ShloMosaic.Lib.ValueIdx

noncomputable section

namespace Cert.Blend

open Idealize.ShloMosaic

variable {F : FTy → Type} [FloatOps F]

/-- The arrays' shape and the weight's. -/
abbrev Arr : Shape := ⟨3, ![4, 4096, 4096]⟩
abbrev Lanes : Shape := ⟨1, ![4096]⟩

/-- The weight's index under an array index: its last coordinate. -/
abbrev lane (i : Arr.Idx) : Lanes.Idx := fun a => match a with
  | ⟨0, _⟩ => ⟨(i 2).val, (i 2).isLt⟩

/-- `a · w + b · (1 − w)`, the weight broadcast along the first two axes. -/
def blend (a b : Arr.Idx → Elt F .f32) (w : Lanes.Idx → Elt F .f32) : Arr.Idx → Elt F .f32 := fun i =>
  FloatOps.addf (FloatOps.mulf (a i) (w (lane i)))
    (FloatOps.mulf (b i) (FloatOps.subf (FloatOps.ofBits .f32 0x3F800000#32) (w (lane i))))

theorem blend_apply (a b : Arr.Idx → Elt F .f32) (w : Lanes.Idx → Elt F .f32) (i : Arr.Idx) :
    blend a b w i = FloatOps.addf (FloatOps.mulf (a i) (w (lane i)))
      (FloatOps.mulf (b i) (FloatOps.subf (FloatOps.ofBits .f32 0x3F800000#32) (w (lane i)))) := rfl

end Cert.Blend

end
-- ==== Proof.KernelValue.lean ====
/-
  What the idealized kernel leaves in its result array: the blend of its three argument arrays.

  The grid has 4 × 8 points; point (p, q) stages rows [512 q, 512 q + 512) of plane p of each of the two big arrays
  (a [1, 512, 4096] block), the whole [4096] weight, and writes the same block of the result. Inside a block the body
  computes, at block index (0, r, l), first · weight l + second · (1 − weight l): the blend at the array index
  (p, 512 q + r, l) under it, because all three big windows move together and the weight's window does not move.
  The 32 blocks tile the array, so the array ends holding the blend everywhere.
-/
import proofs.«152596_j34067680592528_1_alg».proof.Proof.Gen.KernelIdeal.Value
import proofs.«152596_j34067680592528_1_alg».proof.Proof.Blend

set_option maxRecDepth 16384

noncomputable section

namespace Cert.KernelIdeal.BlendValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One block -/

theorem zero3 : (![0, 0, 0] : Fin 3 → Nat) = fun _ => 0 := funext fun a => by fin_cases a <;> rfl
theorem zero1 : (![0] : Fin 1 → Nat) = fun _ => 0 := funext fun a => by fin_cases a <;> rfl

/-- The weight's index under a block index: the last coordinate. -/
abbrev blane (y : S1x512x4096.Idx) : S4096.Idx := fun a => match a with
  | ⟨0, _⟩ => ⟨(y 2).val, (y 2).isLt⟩

/-- A block's first axis has extent 1, so re-reading a block index with its first coordinate set to 0 changes nothing. -/
theorem plane_zero0 (y : S1x512x4096.Idx) : Value.ix3_0 y = y := funext fun a => Fin.ext (by
  have hy0 : (y 0).val < 1 := (y 0).isLt
  match a with
  | ⟨0, _⟩ => show 0 = (y 0).val; omega
  | ⟨1, _⟩ => rfl
  | ⟨2, _⟩ => rfl)
theorem plane_zero2 (y : S1x512x4096.Idx) : Value.ix3_2 y = y := funext fun a => Fin.ext (by
  have hy0 : (y 0).val < 1 := (y 0).isLt
  match a with
  | ⟨0, _⟩ => show 0 = (y 0).val; omega
  | ⟨1, _⟩ => rfl
  | ⟨2, _⟩ => rfl)

/-- The body's result block at a block index: the two big blocks there, the weight at the last coordinate. -/
theorem block_apply (x0 x1 : Vec F S1x512x4096 .f32) (x2 : Vec F S4096 .f32) (y : S1x512x4096.Idx) :
    out0_3 x0 x1 x2 y = FloatOps.addf (FloatOps.mulf (x0 y) (x2 (blane y)))
      (FloatOps.mulf (x1 y) (FloatOps.subf (FloatOps.ofBits .f32 0x3F800000#32) (x2 (blane y)))) := by
  unfold out0_3
  rw [Value.canon3_eq]
  simp only [View.ld_unit_zero (S := S1x512x4096) zero3, View.ld_unit_zero (S := S4096) zero1]
  show FloatOps.addf (FloatOps.mulf (x0 (Value.ix3_0 y)) (x2 (Value.ix3_1 y)))
      (FloatOps.mulf (x1 (Value.ix3_2 y)) (FloatOps.subf (Scalar.ofBits .f32 0x3F800000#32) (x2 (Value.ix3_3 y)))) = _
  rw [plane_zero0, plane_zero2]
  rfl

/-! ## Every point's block is the blend's -/

/-- The printed index maps over the 32 points: the two big inputs' windows sit on the result window's block, the weight's
    window and the result's last axis stay at block 0. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = win0_3.index t (2 : Fin 3)
    ∧ win0_1.index t (0 : Fin 3) = win0_3.index t (0 : Fin 3) ∧ win0_1.index t (1 : Fin 3) = win0_3.index t (1 : Fin 3)
    ∧ win0_1.index t (2 : Fin 3) = win0_3.index t (2 : Fin 3)
    ∧ win0_2.index t (0 : Fin 1) = 0 ∧ win0_3.index t (2 : Fin 3) = 0 :=
  (by decide +kernel : ∀ t : Fin grid0.N, _)

/-- WHAT POINT `t` WRITES BACK is block `t` of the blend of the argument arrays. -/
theorem flushed_eq (c : Dev nD) (t : Fin cfg0.N) :
    (dats m 0 c).flushed 3 t
      = ((cfg0.win 3).blk t).view.read (Elt F) (Cert.Blend.blend (V m c main_arg0) (V m c main_arg1) (V m c main_arg2)) := by
  rw [Value.flushed3]
  funext j
  show out0_3 (iblk m c 0 t) (iblk m c 1 t) (iblk m c 2 t) j
    = Cert.Blend.blend (V m c main_arg0) (V m c main_arg1) (V m c main_arg2) (((cfg0.win 3).blk t).view.emb j)
  refine (block_apply (iblk m c 0 t) (iblk m c 1 t) (iblk m c 2 t) j).trans ?_
  rw [Cert.Blend.blend_apply]
  obtain ⟨a0, a1, a2, b0, b1, b2, w0, o2⟩ := idx_facts t
  have hj0 : (j 0).val < 1 := (j 0).isLt
  have hj1 : (j 1).val < 512 := (j 1).isLt
  have hj2 : (j 2).val < 4096 := (j 2).isLt
  have h0 : ((cfg0.win 0).blk t).view.emb j = ((cfg0.win 3).blk t).view.emb j := by
    funext a; apply Fin.ext
    match a with
    | ⟨0, _⟩ => show win0_0.index t (0 : Fin 3) * 1 + 1 * (j 0).val = win0_3.index t (0 : Fin 3) * 1 + 1 * (j 0).val; omega
    | ⟨1, _⟩ => show win0_0.index t (1 : Fin 3) * 512 + 1 * (j 1).val = win0_3.index t (1 : Fin 3) * 512 + 1 * (j 1).val; omega
    | ⟨2, _⟩ => show win0_0.index t (2 : Fin 3) * 4096 + 1 * (j 2).val = win0_3.index t (2 : Fin 3) * 4096 + 1 * (j 2).val; omega
  have h1 : ((cfg0.win 1).blk t).view.emb j = ((cfg0.win 3).blk t).view.emb j := by
    funext a; apply Fin.ext
    match a with
    | ⟨0, _⟩ => show win0_1.index t (0 : Fin 3) * 1 + 1 * (j 0).val = win0_3.index t (0 : Fin 3) * 1 + 1 * (j 0).val; omega
    | ⟨1, _⟩ => show win0_1.index t (1 : Fin 3) * 512 + 1 * (j 1).val = win0_3.index t (1 : Fin 3) * 512 + 1 * (j 1).val; omega
    | ⟨2, _⟩ => show win0_1.index t (2 : Fin 3) * 4096 + 1 * (j 2).val = win0_3.index t (2 : Fin 3) * 4096 + 1 * (j 2).val; omega
  have h2 : ((cfg0.win 2).blk t).view.emb (blane j) = Cert.Blend.lane (((cfg0.win 3).blk t).view.emb j) := by
    funext a; apply Fin.ext
    match a with
    | ⟨0, _⟩ => show win0_2.index t (0 : Fin 1) * 4096 + 1 * (j 2).val = win0_3.index t (2 : Fin 3) * 4096 + 1 * (j 2).val; omega
  show FloatOps.addf (FloatOps.mulf (V m c main_arg0 (((cfg0.win 0).blk t).view.emb j)) (V m c main_arg2 (((cfg0.win 2).blk t).view.emb (blane j))))
      (FloatOps.mulf (V m c main_arg1 (((cfg0.win 1).blk t).view.emb j)) (FloatOps.subf (FloatOps.ofBits .f32 0x3F800000#32) (V m c main_arg2 (((cfg0.win 2).blk t).view.emb (blane j))))) = _
  rw [h0, h1, h2]

/-! ## The blocks tile the array -/

/-- Every block of the 4 × 8 × 1 box is some point's. -/
theorem idx_onto : ∀ (p : Fin 4) (q : Fin 8), ∃ t : Fin cfg0.N, win0_3.index t = ![p.val, q.val, 0] :=
  (by decide +kernel : ∀ (p : Fin 4) (q : Fin 8), ∃ t : Fin grid0.N, win0_3.index t = ![p.val, q.val, 0])

/-- An index of the array is in point `t`'s block iff each coordinate is in the block's range on its axis. -/
theorem mem_blk (t : Fin cfg0.N) (i : S4x4096x4096.Idx) :
    i ∈ ((cfg0.win 3).blk t).view.set ↔ ∀ a : Fin 3, win0_3.index t a * S1x512x4096.size a ≤ (i a).val
      ∧ (i a).val < win0_3.index t a * S1x512x4096.size a + S1x512x4096.size a := by
  show i ∈ ((View.whole main_v0).slice (win0_3.rect t)).set ↔ _
  rw [View.set_slice_whole, Rect.mem_set_unit]
  exact Iff.rfl

/-- Index (p, s, l) lies in the block of the point whose block index is (p, s / 512, 0). -/
theorem cover (i : S4x4096x4096.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 4096 ≤ (i 2).val ∧ (i 2).val < win0_3.index t (2 : Fin 3) * 4096 + 4096; omega

/-! ## The array, and the run -/

/-- THE RESULT ARRAY after the run is the blend of the argument arrays. -/
theorem final (c : Dev nD) :
    (dats m 0 c).arrAt 3 cfg0.N = Cert.Blend.blend (V m c main_arg0) (V m c main_arg1) (V m c main_arg2) :=
  (dats m 0 c).arrAt_eq_of_cover 3 _ (fun t _ => flushed_eq m c t) cover

/-- Every weakly fair execution of the kernel's program ends with the result array at the blend of the arguments as launched,
    and the arguments unchanged. -/
theorem run : θ_run defs (onTc (τ := τ) (main (F := F))) ⟨m, fun _ => 0, ρ⟩ fun r => ∀ c : Dev nD,
      r.2.mem ((c : Thread nD τ).loc main_v0)
        = Cert.Blend.blend (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.BlendValue

end
-- ==== Proof.RefValue.lean ====
/-
  What the idealized reference computes: the same blend.

  The reference broadcasts the [4096] weight to [1, 1, 4096] and then to [4, 4096, 4096], so at an array index (p, s, l)
  the broadcast weight is the weight at l; likewise for 1 − weight, formed on the [4096] vector before the two broadcasts.
  Reading the ten operations at an index, outermost first, gives first · weight l + second · (1 − weight l).
-/
import proofs.«152596_j34067680592528_1_alg».proof.Proof.Gen.ReferenceIdeal.Read
import proofs.«152596_j34067680592528_1_alg».proof.Proof.Blend

noncomputable section

namespace Cert.ReferenceIdeal.BlendValue

open Cert.ReferenceIdeal Cert.ReferenceIdeal.Gen Cert.ReferenceIdeal.Read Idealize.ShloMosaic

variable {F : FTy → Type} [FloatOps F]

/-- Through the two broadcasts an array index reads the weight at its last coordinate. -/
theorem lane_of_weight (i : S4x4096x4096.Idx) : idx_main_v0 (idx_main_v1 i) = Cert.Blend.lane i :=
  funext fun a => Fin.ext (by match a with | ⟨0, _⟩ => rfl)

/-- And so it reads the complement 1 − weight. -/
theorem lane_of_complement (i : S4x4096x4096.Idx) : idx_main_v5 (idx_main_v6 i) = Cert.Blend.lane i :=
  funext fun a => Fin.ext (by match a with | ⟨0, _⟩ => rfl)

/-- The reference's last stage is the blend of its three arguments. -/
theorem result_eq (x0 x1 : (⟨S4x4096x4096, .f32⟩ : BufTy).Contents (Elt F)) (x2 : (⟨S4096, .f32⟩ : BufTy).Contents (Elt F)) :
    val_main_v8 (F := F) x0 x1 x2 = Cert.Blend.blend x0 x1 x2 := by
  funext i
  rw [val_main_v8_apply, val_main_v2_apply, val_main_v1_apply, val_main_v0_apply, val_main_v7_apply, val_main_v6_apply,
    val_main_v5_apply, val_main_v4_apply, val_main_v3_apply, val_main_cst_apply, lane_of_weight, lane_of_complement]
  rfl

end Cert.ReferenceIdeal.BlendValue

end
-- ==== Proof.lean ====
/-
  A lane-wise blend, certified against its jnp reference over the extended reals.

  Both programs take two [4, 4096, 4096] arrays and a [4096] weight and return, at index (p, s, l),
      first (p, s, l) · weight l + second (p, s, l) · (1 − weight l)           (Proof/Blend.lean).
  The kernel does it block by block on a 4 × 8 grid of [1, 512, 4096] blocks that tile the array, the whole weight staged
  once (Proof/KernelValue.lean); the reference broadcasts the weight and its complement to the full shape and combines
  whole arrays (Proof/RefValue.lean). The two apply the same multiplications, the same subtraction from the same constant 1
  and the same addition to the same operands, so they agree on every extended real: no algebraic law is needed and the
  finiteness of the inputs is never used. The idealization rewrote nothing, so `preserves` has no content. The frames of the
  two kernel programs are the generated ones; the reference's frame is its generated run with the result dropped.
-/
import proofs.«152596_j34067680592528_1_alg».proof.Defs
import proofs.«152596_j34067680592528_1_alg».proof.Proof.Gen.Kernel
import proofs.«152596_j34067680592528_1_alg».proof.Proof.Gen.Kernel.Frame
import proofs.«152596_j34067680592528_1_alg».proof.Proof.Gen.KernelIdeal
import proofs.«152596_j34067680592528_1_alg».proof.Proof.Gen.KernelIdeal.Frame
import proofs.«152596_j34067680592528_1_alg».proof.Proof.Gen.KernelIdeal.Value
import proofs.«152596_j34067680592528_1_alg».proof.Proof.Gen.ReferenceIdeal
import proofs.«152596_j34067680592528_1_alg».proof.Proof.Gen.ReferenceIdeal.Run
import proofs.«152596_j34067680592528_1_alg».proof.Proof.Gen.ReferenceIdeal.Read
import proofs.«152596_j34067680592528_1_alg».proof.Proof.Gen.Pre_finite_inputs
import proofs.«152596_j34067680592528_1_alg».proof.Proof.KernelValue
import proofs.«152596_j34067680592528_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array ends at the blend of its arguments and the
    reference's at the blend of its own: the same array. -/
theorem algebraic : Cert.algebraic_KernelIdeal_ReferenceIdeal := by
  intro m ρ m' ρ' _ hagree
  refine ⟨_, Cert.KernelIdeal.BlendValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.BlendValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
